-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 83
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S50000, .f32⟩
  | .hbm, ⟨58, _⟩ => ⟨S600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128x128, .f32⟩
  | .hbm, ⟨68, _⟩ => ⟨S128, .f32⟩
  | .hbm, ⟨69, _⟩ => ⟨S_, .i32⟩
  | .hbm, ⟨70, _⟩ => ⟨S1, .i32⟩
  | .hbm, ⟨71, _⟩ => ⟨S128x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S_, .i32⟩
  | .hbm, ⟨76, _⟩ => ⟨S1, .i32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S50000x128, .f32⟩
  | .hbm, ⟨81, _⟩ => ⟨S50000x1, .f32⟩
  | .hbm, ⟨82, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S128 : S_.BroadcastsInDim S128 (![] : Fin 0 → Fin S128.rank)
  shapeCasts_S1_S_ : S1.ShapeCasts S_
  shapeCasts_S128x128_S128x128 : S128x128.ShapeCasts S128x128
  slices_S50000x128_S50000x1_0_0 : S50000x128.Slices ![0, 0] S50000x1
  shapeCasts_S50000x1_S50000 : S50000x1.ShapeCasts S50000
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  scatter_S128x128_S1_S128_0_1_1_0_wf : ScatterDims.WF S128x128 S1 S128 [0] [1] [1] 0
  scatter_S128_S1_S__n_0_0_0_wf : ScatterDims.WF S128 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x1, .f32⟩
  | .hbm, ⟨83, _⟩ => ⟨S1x1, .f32⟩
  | .hbm, ⟨84, _⟩ => ⟨S50000x1, .f32⟩
  | .hbm, ⟨85, _⟩ => ⟨S50000x1, .f32⟩
  | .hbm, ⟨86, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  One GraphSAGE layer, and the second layer with the linear head, as functions of whole arrays, entry by entry.

  A layer takes the mean-aggregated neighbour features `agg` and the nodes' own features `root` (both N × 128), two
  128 × 128 weight matrices and a bias row, and gives at node `p`, feature `q`
      max ( (Σₖ agg[p,k]·wl[k,q] + Σₖ root[p,k]·wr[k,q]) + b[q] , 0 ).
  The head multiplies the second layer's output row by a 128 × 128 matrix `wo` and adds a bias row `bo`:
      Σₖ layer[p,k]·wo[k,q] + bo[q].
  Everything is over the extended reals: sums and products are exact, and nothing here needs the entries finite.
  `N` is left free: a block of 5000 rows of the arrays and the arrays themselves are read by the same formula.
-/
import Idealize.ShloMosaic.PureOps.Ideal
import Idealize.ShloMosaic.Lib.ValueIdx

noncomputable section

open scoped BigOperators

namespace Cert.Sage

open Idealize.ShloMosaic Idealize.ShloMosaic.ValueIdx

variable {N : ℕ}

/-- The zero the rectifier compares against: the all-zero word read as a float. -/
abbrev zero : Ideal .f32 := Ideal.ofBits .f32 0x00000000#32

/-- One layer at node `p`, feature `q`. -/
def convAt (agg root : FVec Ideal ⟨2, ![N, 128]⟩ .f32) (wl wr : FVec Ideal ⟨2, ![128, 128]⟩ .f32)
    (b : FVec Ideal ⟨2, ![1, 128]⟩ .f32) (p : Fin N) (q : Fin 128) : Ideal .f32 :=
  max (((∑ k : Fin 128, agg (ix2 p k) * wl (ix2 k q)) + ∑ k : Fin 128, root (ix2 p k) * wr (ix2 k q)) + b (ix2 0 q)) zero

/-- One layer as an array. -/
def conv (agg root : FVec Ideal ⟨2, ![N, 128]⟩ .f32) (wl wr : FVec Ideal ⟨2, ![128, 128]⟩ .f32)
    (b : FVec Ideal ⟨2, ![1, 128]⟩ .f32) : FVec Ideal ⟨2, ![N, 128]⟩ .f32 :=
  fun i => convAt agg root wl wr b (i 0) (i 1)

theorem conv_apply (agg root : FVec Ideal ⟨2, ![N, 128]⟩ .f32) (wl wr : FVec Ideal ⟨2, ![128, 128]⟩ .f32)
    (b : FVec Ideal ⟨2, ![1, 128]⟩ .f32) (p : Fin N) (q : Fin 128) :
    conv agg root wl wr b (ix2 p q) = convAt agg root wl wr b p q := rfl

/-- The layer followed by the head, at node `p`, output column `q`. -/
def headAt (agg root : FVec Ideal ⟨2, ![N, 128]⟩ .f32) (wl wr : FVec Ideal ⟨2, ![128, 128]⟩ .f32)
    (b : FVec Ideal ⟨2, ![1, 128]⟩ .f32) (wo : FVec Ideal ⟨2, ![128, 128]⟩ .f32) (bo : FVec Ideal ⟨2, ![1, 128]⟩ .f32)
    (p : Fin N) (q : Fin 128) : Ideal .f32 :=
  (∑ k : Fin 128, convAt agg root wl wr b p k * wo (ix2 k q)) + bo (ix2 0 q)

/-- The layer followed by the head as an array. -/
def head (agg root : FVec Ideal ⟨2, ![N, 128]⟩ .f32) (wl wr : FVec Ideal ⟨2, ![128, 128]⟩ .f32)
    (b : FVec Ideal ⟨2, ![1, 128]⟩ .f32) (wo : FVec Ideal ⟨2, ![128, 128]⟩ .f32) (bo : FVec Ideal ⟨2, ![1, 128]⟩ .f32) :
    FVec Ideal ⟨2, ![N, 128]⟩ .f32 :=
  fun i => headAt agg root wl wr b wo bo (i 0) (i 1)

theorem head_apply (agg root : FVec Ideal ⟨2, ![N, 128]⟩ .f32) (wl wr : FVec Ideal ⟨2, ![128, 128]⟩ .f32)
    (b : FVec Ideal ⟨2, ![1, 128]⟩ .f32) (wo : FVec Ideal ⟨2, ![128, 128]⟩ .f32) (bo : FVec Ideal ⟨2, ![1, 128]⟩ .f32)
    (p : Fin N) (q : Fin 128) :
    head agg root wl wr b wo bo (ix2 p q) = headAt agg root wl wr b wo bo p q := rfl

end Cert.Sage

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Rows0.lean ====
/-
  The first layer's kernel, read as one function of whole arrays.

  The kernel runs over ten points; point `t` holds rows `5000·t … 5000·t + 4999` of the aggregated features and of the
  nodes' own features, the two whole weight matrices and the bias row, and writes the same rows of the output. At an entry
  `(p, q)` of a block what it writes is
      max ( (Σₖ agg[p,k]·wl[k,q] + Σₖ root[p,k]·wr[k,q]) + b[q] , 0 ),
  the casts to the narrower float format being the identity over the extended reals and a product into a zero accumulator
  being the plain sum over the shared axis. Row `p` of block `t` is row `5000·t + p` of the array, the small arrays'
  blocks are the arrays, and every row `r` of the output lies in block `r / 5000`: so after the ten points the output array
  is the layer of the input arrays, entry by entry.
-/
import proofs.«181763_j5085241279116_1_alg».proof.Proof.Gen.KernelIdeal.Frame
import proofs.«181763_j5085241279116_1_alg».proof.Proof.Spec
import proofs.«181763_j5085241279116_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rows0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## What a point writes, at an entry of its block -/

/-- The kernel's contraction is rows by columns: the printed dimension record is the plain one. -/
theorem dot_is_plain : dot_S5000x128_S128x128_S5000x128_1_0_0_1_n_n = DotDims.plain 5000 128 128 := rfl

/-- The value a point stores, at row `p` and feature `q` of its block, is the layer of the blocks it loaded: the
    narrowing casts and the same-shape reshapes are identities, each product into the zero accumulator is the sum over
    the shared axis, the bias row is repeated down the rows, and the rectifier compares against the zero word. -/
theorem payload_apply (x0 x1 : Vec Ideal S5000x128 .f32) (wl wr : Vec Ideal S128x128 .f32) (b : Vec Ideal S1x128 .f32)
    (p : Fin 5000) (q : Fin 128) :
    k0_pay1 (F := Ideal) x0 x1 wl wr b (ix2 p q) = Cert.Sage.convAt x0 x1 wl wr b p q := by
  unfold k0_pay1
  rw [shapeCast_self, shapeCast_self, maximumf_apply, addf_apply, addf_apply, broadcastTo_1b_ab_apply, broadcast_apply,
    dot_is_plain]
  unfold Cert.Sage.convAt
  refine congrArg₂ max (congrArg₂ (· + ·) (congrArg₂ (· + ·) ?_ ?_) rfl) rfl
  · exact Cert.GNN.matmul_plain_zero_apply none _ _ p q
  · exact Cert.GNN.matmul_plain_zero_apply none _ _ p q

/-! ## Where a block sits in its array -/

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The block indices at point `t`: the two feature arrays and the output move down the rows with `t`, the weight matrices
    and the bias row stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block, as a row of the whole array: `5000·t + p`. -/
def row (t : Fin cfg0.N) (p : Fin 5000) : Fin 50000 :=
  ⟨t.val * 5000 + p.val, by have ht : t.val < 10 := lt_of_lt_of_eq t.isLt N_0; have := p.isLt; omega⟩

/-- Block `t` of the aggregated features at `(p, k)` is the array at `(5000·t + p, k)`. -/
theorem agg_block (c : Dev nD) (t : Fin cfg0.N) (p : Fin 5000) (k : Fin 128) :
    (iblk0 V c 0 t : Vec Ideal S5000x128 .f32) (ix2 p k) = V c main_v22 (ix2 (row t p) k) := by
  obtain ⟨e0, e1, -⟩ := index_facts t
  show V c main_v22 (((cfg0.win 0).blk t).view.emb (ix2 p k)) = V c main_v22 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block `t` of the nodes' own features at `(p, k)` is the array at `(5000·t + p, k)`. -/
theorem root_block (c : Dev nD) (t : Fin cfg0.N) (p : Fin 5000) (k : Fin 128) :
    (iblk0 V c 1 t : Vec Ideal S5000x128 .f32) (ix2 p k) = V c main_arg0 (ix2 (row t p) k) := by
  obtain ⟨-, -, e0, e1, -⟩ := index_facts t
  show V c main_arg0 (((cfg0.win 1).blk t).view.emb (ix2 p k)) = V c main_arg0 (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The one block of the neighbours' weight matrix is the matrix. -/
theorem wl_block (c : Dev nD) (t : Fin cfg0.N) (k : Fin 128) (q : Fin 128) :
    (iblk0 V c 2 t : Vec Ideal S128x128 .f32) (ix2 k q) = V c main_arg2 (ix2 k q) := by
  obtain ⟨-, -, -, -, e0, e1, -⟩ := index_facts t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The one block of the bias row is the row. -/
theorem bias_block (c : Dev nD) (t : Fin cfg0.N) (q : Fin 128) :
    (iblk0 V c 3 t : Vec Ideal S1x128 .f32) (ix2 (0 : Fin 1) q) = V c main_v23 (ix2 (0 : Fin 1) q) := by
  obtain ⟨-, -, -, -, -, -, e0, e1, -⟩ := index_facts t
  show V c main_v23 (((cfg0.win 3).blk t).view.emb (ix2 (0 : Fin 1) q)) = V c main_v23 (ix2 (0 : Fin 1) q)
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- The one block of the nodes' own weight matrix is the matrix. -/
theorem wr_block (c : Dev nD) (t : Fin cfg0.N) (k : Fin 128) (q : Fin 128) :
    (iblk0 V c 4 t : Vec Ideal S128x128 .f32) (ix2 k q) = V c main_arg4 (ix2 k q) := by
  obtain ⟨-, -, -, -, -, -, -, -, e0, e1, -⟩ := index_facts t
  show V c main_arg4 (((cfg0.win 4).blk t).view.emb (ix2 k q)) = V c main_arg4 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry `(p, q)` of the output's block `t` is entry `(5000·t + p, q)` of the output array. -/
theorem out_row (t : Fin cfg0.N) (p : Fin 5000) (q : Fin 128) :
    ((cfg0.win 5).blk t).view.emb (ix2 p q) = (ix2 (row t p) q : S50000x128.Idx) := by
  obtain ⟨-, -, -, -, -, -, -, -, -, -, e0, e1⟩ := index_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## From blocks to the array -/

/-- The layer of the blocks at point `t`, at row `p`, is the layer of the arrays at row `5000·t + p`: the contraction
    reads row `p` of the two feature blocks, all of the two matrices, and the bias row. -/
theorem conv_block (c : Dev nD) (t : Fin cfg0.N) (p : Fin 5000) (q : Fin 128) :
    Cert.Sage.convAt (iblk0 V c 0 t) (iblk0 V c 1 t) (iblk0 V c 2 t) (iblk0 V c 4 t) (iblk0 V c 3 t) p q
      = Cert.Sage.convAt (V c main_v22) (V c main_arg0) (V c main_arg2) (V c main_arg4) (V c main_v23) (row t p) q := by
  unfold Cert.Sage.convAt
  refine congrArg₂ max (congrArg₂ (· + ·) (congrArg₂ (· + ·)
    (Finset.sum_congr rfl fun k _ => ?_) (Finset.sum_congr rfl fun k _ => ?_)) ?_) rfl
  · exact congrArg₂ (· * ·) (agg_block V c t p k) (wl_block V c t k q)
  · exact congrArg₂ (· * ·) (root_block V c t p k) (wr_block V c t k q)
  · exact bias_block V c t q

/-- What point `t` writes back is block `t` of the layer of the arrays as the region finds them. -/
theorem flushed_eq (c : Dev nD) (t : Fin cfg0.N) :
    (dat0 (F := Ideal) V c).flushed 5 t = ((cfg0.win 5).blk t).view.read (Elt Ideal)
      (Cert.Sage.conv (V c main_v22) (V c main_arg0) (V c main_arg2) (V c main_arg4) (V c main_v23)) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = Cert.Sage.conv (V c main_v22) (V c main_arg0) (V c main_arg2) (V c main_arg4) (V c main_v23)
        (((cfg0.win 5).blk t).view.emb (ix2 p q))
  rw [payload_apply, out_row, Cert.Sage.conv_apply]
  exact conv_block V c t p q

/-- An entry of the output array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every entry of the output array is in some point's block: row `r` is in block `r / 5000`. -/
theorem rows_covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := lt_of_lt_of_eq (by omega : (i 0).val / 5000 < 10) N_0.symm
  obtain ⟨-, -, -, -, -, -, -, -, -, -, e0, e1⟩ := index_facts ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    have e0' : win0_5.index ⟨(i 0).val / 5000, ht⟩ (0 : Fin 2) = (i 0).val / 5000 := e0
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The output array after the region is the layer of the arrays as the region finds them. -/
theorem layer_array (c : Dev nD) :
    (dat0 (F := Ideal) V c).arrAt 5 cfg0.N
      = Cert.Sage.conv (V c main_v22) (V c main_arg0) (V c main_arg2) (V c main_arg4) (V c main_v23) :=
  (dat0 (F := Ideal) V c).arrAt_eq_of_cover 5 _ (fun t _ => flushed_eq V c t) rows_covered

end Cert.KernelIdeal.Rows0

end
-- ==== Proof.Rows1.lean ====
/-
  The second pallas_call's output, as one function of the arrays it finds.

  The call runs over ten grid points. Point t stages rows 5000·t … 5000·t + 4999 of the aggregated features and of the
  first layer's output, and the five small arrays (two 128 × 128 weight matrices, the bias row, the padded head matrix
  and the padded head bias row) whole; it stores one 5000 × 128 block, which is written back to rows 5000·t … of the
  output. This module shows that the output array, after all ten write-backs, is the specification's
  layer-followed-by-head function of the seven arrays, entry by entry:
    • the stored block at (p, q) is the specification's entry (p, q) of the staged blocks: the casts to bf16 are the
      identity over the extended reals, each product into a zero accumulator is the plain sum over the shared axis, a
      broadcast row is read at its one row, and the rectifier compares with the zero word;
    • that entry reads only row p of the two tall blocks, which is row 5000·t + p of the arrays, and the small arrays
      whole, so it is the specification's entry (5000·t + p, q) of the arrays;
    • every row r of the output lies in the block of point r / 5000, and every point writes its block back.
-/
import proofs.«181763_j5085241279116_1_alg».proof.Proof.Gen.KernelIdeal.Frame
import proofs.«181763_j5085241279116_1_alg».proof.Proof.Spec
import proofs.«181763_j5085241279116_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rows1

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The stored block at an entry -/

/-- The printed dimension record of the three products is the plain "rows by columns" one: the fields agree, and
    the well-formedness proofs are proofs of one proposition. -/
theorem dims_plain : dot_S5000x128_S128x128_S5000x128_1_0_0_1_n_n = DotDims.plain 5000 128 128 := rfl

/-- A 5000 × 128 by 128 × 128 product into the zero accumulator, at entry (p, q): the sum over k of
    l (p, k) · r (k, q). -/
theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dims_plain]
  exact Cert.GNN.matmul_plain_zero_apply none l r p q

/-- The body's stored value at (p, q) is the specification's layer-followed-by-head entry (p, q) of the staged
    blocks. The outer sum is the head's product, whose left operand at (p, k) is the rectified layer value there;
    the inner two sums are the layer's products; the casts to bf16 change nothing over the extended reals, the bias
    rows are read at their one row, and the rectifier's zero is the zero word. -/
theorem payload_apply (x0 x1 : Vec Ideal S5000x128 .f32) (wl wr : Vec Ideal S128x128 .f32) (b : Vec Ideal S1x128 .f32)
    (wo : Vec Ideal S128x128 .f32) (bo : Vec Ideal S1x128 .f32) (p : Fin 5000) (q : Fin 128) :
    k1_pay1 (F := Ideal) x0 x1 wl wr b wo bo (ix2 p q) = Cert.Sage.headAt x0 x1 wl wr b wo bo p q := by
  unfold k1_pay1
  simp only [shapeCast_self]
  rw [addf_apply, product_apply, broadcastTo_1b_ab_apply]
  unfold Cert.Sage.headAt
  refine congrArg (· + bo (ix2 0 q)) (Finset.sum_congr rfl fun k _ => ?_)
  rw [truncf_apply, truncf_apply, maximumf_apply, addf_apply, addf_apply, product_apply, product_apply,
    broadcastTo_1b_ab_apply, broadcast_apply]
  simp only [truncf_apply]
  rfl

/-- The layer-followed-by-head entry (p, q) of a block of rows is the entry (r, q) of the whole arrays when row p of
    each tall block is row r of its array and the small arrays are the same: the entry reads nothing else. -/
theorem headAt_row {N : ℕ} (A0 A1 : FVec Ideal ⟨2, ![N, 128]⟩ .f32) (x0 x1 : FVec Ideal ⟨2, ![5000, 128]⟩ .f32)
    (wl wr : FVec Ideal ⟨2, ![128, 128]⟩ .f32) (b : FVec Ideal ⟨2, ![1, 128]⟩ .f32)
    (wo : FVec Ideal ⟨2, ![128, 128]⟩ .f32) (bo : FVec Ideal ⟨2, ![1, 128]⟩ .f32)
    (wl' wr' : FVec Ideal ⟨2, ![128, 128]⟩ .f32) (b' : FVec Ideal ⟨2, ![1, 128]⟩ .f32)
    (wo' : FVec Ideal ⟨2, ![128, 128]⟩ .f32) (bo' : FVec Ideal ⟨2, ![1, 128]⟩ .f32)
    (p : Fin 5000) (r : Fin N) (q : Fin 128)
    (h0 : ∀ k : Fin 128, x0 (ix2 p k) = A0 (ix2 r k)) (h1 : ∀ k : Fin 128, x1 (ix2 p k) = A1 (ix2 r k))
    (hwl : ∀ j, wl' j = wl j) (hwr : ∀ j, wr' j = wr j) (hb : ∀ j, b' j = b j) (hwo : ∀ j, wo' j = wo j) (hbo : ∀ j, bo' j = bo j) :
    Cert.Sage.headAt x0 x1 wl' wr' b' wo' bo' p q = Cert.Sage.headAt A0 A1 wl wr b wo bo r q := by
  unfold Cert.Sage.headAt Cert.Sage.convAt
  simp only [h0, h1, hwl, hwr, hb, hwo, hbo]

variable (V : (c : Dev nD) → (b : Ref sig .tc) → Buf (Elt Ideal) ((c : Thread nD τ).loc b))

/-! ## The blocks at a grid point -/

/-- The zero offsets of a whole-buffer access, spelt as a constant function. -/
theorem zero_offsets : (![0, 0] : Fin 2 → Nat) = fun _ => 0 := funext fun a => match a with | ⟨0, _⟩ => rfl | ⟨1, _⟩ => rfl

/-- The index maps over the grid: the two tall inputs and the output are at block (t, 0) at point t, the five small
    arrays at block (0, 0); and there are ten points. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 10 :=
  (by decide +kernel : ∀ t : Fin grid1.N, _)

/-- Row p of the aggregated features' block at point t is row 5000·t + p of the array: a block's coordinate in its
    array is the block index times the block's size plus the coordinate inside the block. -/
theorem agg_block_apply (c : Dev nD) (t : Fin cfg1.N) (p : Fin 5000) (k : Fin 128) (h : 5000 * t.val + p.val < 50000) :
    iblk1 (F := Ideal) V c 0 t (ix2 p k) = V c main_v43 (ix2 ⟨5000 * t.val + p.val, h⟩ k) := by
  show V c main_v43 (((cfg1.win 0).blk t).view.emb (ix2 p k)) = _
  refine congrArg (V c main_v43) (funext fun a => Fin.ext ?_)
  obtain ⟨e0, e1, -⟩ := index_maps t
  match a with
  | ⟨0, _⟩ => show win1_0.index t (0 : Fin 2) * 5000 + 1 * p.val = 5000 * t.val + p.val; omega
  | ⟨1, _⟩ => show win1_0.index t (1 : Fin 2) * 128 + 1 * k.val = k.val; omega

/-- Row p of the first layer's output's block at point t is row 5000·t + p of the array. -/
theorem root_block_apply (c : Dev nD) (t : Fin cfg1.N) (p : Fin 5000) (k : Fin 128) (h : 5000 * t.val + p.val < 50000) :
    iblk1 (F := Ideal) V c 1 t (ix2 p k) = V c main_v24 (ix2 ⟨5000 * t.val + p.val, h⟩ k) := by
  show V c main_v24 (((cfg1.win 1).blk t).view.emb (ix2 p k)) = _
  refine congrArg (V c main_v24) (funext fun a => Fin.ext ?_)
  obtain ⟨-, -, e0, e1, -⟩ := index_maps t
  match a with
  | ⟨0, _⟩ => show win1_1.index t (0 : Fin 2) * 5000 + 1 * p.val = 5000 * t.val + p.val; omega
  | ⟨1, _⟩ => show win1_1.index t (1 : Fin 2) * 128 + 1 * k.val = k.val; omega

/-- The left weight matrix's block at every point is the matrix: its block index is (0, 0) and the block is the array's size. -/
theorem wl_block_apply (c : Dev nD) (t : Fin cfg1.N) (j : S128x128.Idx) :
    iblk1 (F := Ideal) V c 2 t j = V c main_arg5 j := by
  show V c main_arg5 (((cfg1.win 2).blk t).view.emb j) = _
  refine congrArg (V c main_arg5) (funext fun a => Fin.ext ?_)
  obtain ⟨-, -, -, -, e0, e1, -⟩ := index_maps t
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- The bias row's block at every point is the row. -/
theorem bias_block_apply (c : Dev nD) (t : Fin cfg1.N) (j : S1x128.Idx) :
    iblk1 (F := Ideal) V c 3 t j = V c main_v52 j := by
  show V c main_v52 (((cfg1.win 3).blk t).view.emb j) = _
  refine congrArg (V c main_v52) (funext fun a => Fin.ext ?_)
  obtain ⟨-, -, -, -, -, -, e0, e1, -⟩ := index_maps t
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- The right weight matrix's block at every point is the matrix. -/
theorem wr_block_apply (c : Dev nD) (t : Fin cfg1.N) (j : S128x128.Idx) :
    iblk1 (F := Ideal) V c 4 t j = V c main_arg7 j := by
  show V c main_arg7 (((cfg1.win 4).blk t).view.emb j) = _
  refine congrArg (V c main_arg7) (funext fun a => Fin.ext ?_)
  obtain ⟨-, -, -, -, -, -, -, -, e0, e1, -⟩ := index_maps t
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- The padded head matrix's block at every point is the matrix. -/
theorem head_matrix_block_apply (c : Dev nD) (t : Fin cfg1.N) (j : S128x128.Idx) :
    iblk1 (F := Ideal) V c 5 t j = V c main_v47 j := by
  show V c main_v47 (((cfg1.win 5).blk t).view.emb j) = _
  refine congrArg (V c main_v47) (funext fun a => Fin.ext ?_)
  obtain ⟨-, -, -, -, -, -, -, -, -, -, e0, e1, -⟩ := index_maps t
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- The padded head bias row's block at every point is the row. -/
theorem head_bias_block_apply (c : Dev nD) (t : Fin cfg1.N) (j : S1x128.Idx) :
    iblk1 (F := Ideal) V c 6 t j = V c main_v53 j := by
  show V c main_v53 (((cfg1.win 6).blk t).view.emb j) = _
  refine congrArg (V c main_v53) (funext fun a => Fin.ext ?_)
  obtain ⟨-, -, -, -, -, -, -, -, -, -, -, -, e0, e1, -⟩ := index_maps t
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Entry (p, q) of the output's block at point t sits at (5000·t + p, q) of the output array. -/
theorem out_block_emb (t : Fin cfg1.N) (p : Fin 5000) (q : Fin 128) (h : 5000 * t.val + p.val < 50000) :
    ((cfg1.win 7).blk t).view.emb (ix2 p q) = ix2 ⟨5000 * t.val + p.val, h⟩ q := by
  refine funext fun a => Fin.ext ?_
  obtain ⟨-, -, -, -, -, -, -, -, -, -, -, -, -, -, e0, e1, -⟩ := index_maps t
  match a with
  | ⟨0, _⟩ => show win1_7.index t (0 : Fin 2) * 5000 + 1 * p.val = 5000 * t.val + p.val; omega
  | ⟨1, _⟩ => show win1_7.index t (1 : Fin 2) * 128 + 1 * q.val = q.val; omega

/-! ## From the blocks to the array -/

/-- What point t writes back is block t of the specification's array: the body's one whole-buffer store leaves its
    payload, whose entry (p, q) is the specification's entry of the staged blocks, that is, of the arrays at row
    5000·t + p. -/
theorem written_back (c : Dev nD) (t : Fin cfg1.N) :
    (dat1 (F := Ideal) V c).flushed 7 t = ((cfg1.win 7).blk t).view.read (Elt Ideal)
      (Cert.Sage.head (V c main_v43) (V c main_v24) (V c main_arg5) (V c main_arg7) (V c main_v52) (V c main_v47) (V c main_v53)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have ht : t.val < 10 := (index_maps t).2.2.2.2.2.2.2.2.2.2.2.2.2.2.2.2
  have h : 5000 * t.val + p.val < 50000 := by have := p.isLt; omega
  show k1_pay1 (F := Ideal) (iblk1 V c 0 t) (iblk1 V c 1 t) (iblk1 V c 2 t) (iblk1 V c 4 t) (iblk1 V c 3 t) (iblk1 V c 5 t) (iblk1 V c 6 t) (ix2 p q)
    = Cert.Sage.head (V c main_v43) (V c main_v24) (V c main_arg5) (V c main_arg7) (V c main_v52) (V c main_v47) (V c main_v53)
        (((cfg1.win 7).blk t).view.emb (ix2 p q))
  rw [out_block_emb t p q h, Cert.Sage.head_apply]
  refine (payload_apply _ _ _ _ _ _ _ p q).trans ?_
  exact headAt_row _ _ _ _ _ _ _ _ _ _ _ _ _ _ p ⟨5000 * t.val + p.val, h⟩ q
    (fun k => agg_block_apply V c t p k h) (fun k => root_block_apply V c t p k h)
    (wl_block_apply V c t) (wr_block_apply V c t) (bias_block_apply V c t) (head_matrix_block_apply V c t)
    (head_bias_block_apply V c t)

/-- An index of the output array is in point t's block iff each coordinate is in the block's range on its axis. -/
theorem mem_out_block (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v54).slice (win1_7.rect t)).set ↔ _
  rw [View.set_slice_whole, Rect.mem_set_unit]
  exact Iff.rfl

/-- Every entry of the output array is in some point's block, and that point writes back: row r is in the block of
    point r / 5000. -/
theorem rows_covered (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  refine ⟨t, flush1_7 t, ?_⟩
  rw [mem_out_block]
  obtain ⟨-, -, -, -, -, -, -, -, -, -, -, -, -, -, e0, e1, -⟩ := index_maps t
  have et : t.val = (i 0).val / 5000 := rfl
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The output array after the region is the specification's layer-followed-by-head function of the seven arrays as
    the region finds them: every point writes back its block of that function, and the blocks cover the array. -/
theorem head_array (c : Dev nD) :
    (dat1 (F := Ideal) V c).arrAt 7 cfg1.N
      = Cert.Sage.head (V c main_v43) (V c main_v24) (V c main_arg5) (V c main_arg7) (V c main_v52) (V c main_v47) (V c main_v53) :=
  (dat1 (F := Ideal) V c).arrAt_eq_of_cover 7 _ (fun t _ => written_back V c t) rows_covered

end Cert.KernelIdeal.Rows1

end
-- ==== Proof.Glue.lean ====
/-
  The host-side pieces of the network that are not matrix work, named once.

  `segMean feat src dst` is the mean aggregation of a graph layer: gather the source node's feature row along every edge
  (a negative source id wraps by the node count), add the rows up at the edge's destination node, count the edges per
  destination, and divide each summed row by that count, a count of zero replaced by one. `srcOf` / `dstOf` are the two
  rows of the edge list. `woPad` is the 128 × 1 head matrix written into column 0 of a 128 × 128 matrix of zeros, and
  `boPad` the head's one bias written into entry 0 of a row of 128 zeros, as a 1 × 128 array.
-/
import proofs.«181763_j5085241279116_1_alg».proof.KernelIdeal
import Idealize.ShloMosaic.PureOps.Ideal

noncomputable section

namespace Cert.KernelIdeal.Glue

open Cert.KernelIdeal Idealize.ShloMosaic
open Facts₀

variable {F : FTy → Type} [FloatOps F] [Facts]

/-- The source-node ids: row 0 of the edge list. -/
def srcOf (ei : Vec F S2x600000 .i32) : Vec F S600000 .i32 :=
  shapeCast S600000 (extractStridedSlice S1x600000 ![0, 0] ei slices_S2x600000_S1x600000_0_0) shapeCasts_S1x600000_S600000

/-- The destination-node ids: row 1 of the edge list. -/
def dstOf (ei : Vec F S2x600000 .i32) : Vec F S600000 .i32 :=
  shapeCast S600000 (extractStridedSlice S1x600000 ![1, 0] ei slices_S2x600000_S1x600000_1_0) shapeCasts_S1x600000_S600000

/-- Mean aggregation of `feat` over the edges `src → dst`. -/
def segMean (feat : Vec F S50000x128 .f32) (src dst : Vec F S600000 .i32) : Vec F S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 dst)
            (broadcastInDim S600000 ![] bcast_S_S600000 (constant S_ .f32 0x3F800000#32)))
          (broadcastInDim S50000 ![] bcast_S_S50000 (constant S_ .f32 0x3F800000#32)))))

/-- A bias vector as a one-row array. -/
def rowOf (b : Vec F S128 .f32) : Vec F S1x128 .f32 := shapeCast S1x128 b shapeCasts_S128_S1x128

/-- The head's 128 × 1 matrix as column 0 of a 128 × 128 matrix of zeros. -/
def woPad (wo : Vec F S128x1 .f32) : Vec F S128x128 .f32 :=
  Host.scatter scatter_S128x128_S1_S128_0_1_1_0 (fun _ b => b)
    (broadcastInDim S128x128 ![] bcast_S_S128x128 (constant S_ .f32 0x00000000#32))
    (broadcastInDim S1 ![] bcast_S_S1 (constantI S_ 32 0#32))
    (shapeCast S128 wo shapeCasts_S128x1_S128)

/-- The head's bias as entry 0 of a row of 128 zeros. -/
def boPad (bo : Vec F S1 .f32) : Vec F S1x128 .f32 :=
  shapeCast S1x128
    (Host.scatter scatter_S128_S1_S__n_0_0_0 (fun _ b => b)
      (broadcastInDim S128 ![] bcast_S_S128 (constant S_ .f32 0x00000000#32))
      (broadcastInDim S1 ![] bcast_S_S1 (constantI S_ 32 0#32))
      (shapeCast S_ bo shapeCasts_S1_S_))
    shapeCasts_S128_S1x128

end Cert.KernelIdeal.Glue

end
-- ==== Proof.KernelValue.lean ====
/-
  The kernel program's result as one term of its arguments.

  The program runs host operations, the first layer's call, more host operations, the second layer's call with the head,
  and a last slice. Each boundary's buffer contents are followed from the launch: the host stretches compute the mean
  aggregation of the features (and, after the first call, of the first hidden array), the bias rows and the padded head;
  each call leaves its output array at the layer function of the arrays it was entered with; the result is column 0 of
  the second call's output.
-/
import proofs.«181763_j5085241279116_1_alg».proof.Proof.KernelRun
import proofs.«181763_j5085241279116_1_alg».proof.Proof.Rows0
import proofs.«181763_j5085241279116_1_alg».proof.Proof.Rows1
import proofs.«181763_j5085241279116_1_alg».proof.Proof.Glue
import Idealize.ShloMosaic.Lib.StableHlo.Run
import Idealize.ShloMosaic.Lib.Pipeline.Value
import Idealize.ShloMosaic.Lib.ValueIdx

set_option maxRecDepth 16384

noncomputable section

namespace Cert.KernelIdeal.Net

open Idealize.ShloMosaic Idealize.ShloMosaic.TcCoe Idealize.ShloMosaic.ValueIdx Idealize.ShloMosaic.StableHlo
open Idealize.SL.Sem
open Cert.KernelIdeal Cert.KernelIdeal.Gen Cert.KernelIdeal.Glue

variable (m : (ℓ : Loc nD τ sig) → Buf (Elt Ideal) ℓ) (ρ : Dev nD → PrngReg)

/-! ## Before the first call -/

set_option maxHeartbeats 8000000 in
theorem W1_agg (c : Dev nD) : W1 m ρ c (Proc.devRef .tc main_v22) = segMean (F := Ideal) (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp <;> rfl

set_option maxHeartbeats 8000000 in
theorem W1_src (c : Dev nD) : W1 m ρ c (Proc.devRef .tc main_v1) = srcOf (F := Ideal) (m ((c : Thread nD τ).loc main_arg1)) := by
  show StableHlo.after hostOps0 (W0 m ρ c) (Proc.devRef .tc main_v1) = _
  after_results_simp <;> rfl

set_option maxHeartbeats 8000000 in
theorem W1_dst (c : Dev nD) : W1 m ρ c (Proc.devRef .tc main_v3) = dstOf (F := Ideal) (m ((c : Thread nD τ).loc main_arg1)) := by
  show StableHlo.after hostOps0 (W0 m ρ c) (Proc.devRef .tc main_v3) = _
  after_results_simp <;> rfl

set_option maxHeartbeats 8000000 in
theorem W1_bias (c : Dev nD) : W1 m ρ c (Proc.devRef .tc main_v23) = rowOf (F := Ideal) (m ((c : Thread nD τ).loc main_arg3)) := by
  show StableHlo.after hostOps0 (W0 m ρ c) (Proc.devRef .tc main_v23) = _
  after_results_simp <;> rfl

set_option maxHeartbeats 8000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 8000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

set_option maxHeartbeats 8000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

set_option maxHeartbeats 8000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

set_option maxHeartbeats 8000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 8000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

set_option maxHeartbeats 8000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 8000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

/-! ## The first call, and what the second stretch of host operations reads -/

/-- The first hidden array: the layer function of the aggregated features, the features, the first layer's weights and
    its bias as a row. -/
def hidden (x0 : Vec Ideal S50000x128 .f32) (x1 : Vec Ideal S2x600000 .i32) (x2 : Vec Ideal S128x128 .f32)
    (x3 : Vec Ideal S128 .f32) (x4 : Vec Ideal S128x128 .f32) : Vec Ideal S50000x128 .f32 :=
  Cert.Sage.conv (segMean x0 (srcOf x1) (dstOf x1)) x0 x2 x4 (rowOf x3)

/-- The second call's whole output: the layer function with the head, of the aggregated hidden array, the hidden array,
    the second layer's weights and bias row, and the padded head. -/
def outFull (x0 : Vec Ideal S50000x128 .f32) (x1 : Vec Ideal S2x600000 .i32) (x2 : Vec Ideal S128x128 .f32)
    (x3 : Vec Ideal S128 .f32) (x4 x5 : Vec Ideal S128x128 .f32) (x6 : Vec Ideal S128 .f32) (x7 : Vec Ideal S128x128 .f32)
    (x8 : Vec Ideal S128x1 .f32) (x9 : Vec Ideal S1 .f32) : Vec Ideal S50000x128 .f32 :=
  Cert.Sage.head (segMean (hidden x0 x1 x2 x3 x4) (srcOf x1) (dstOf x1)) (hidden x0 x1 x2 x3 x4) x5 x7 (rowOf x6) (woPad x8) (boPad x9)

/-- Column 0 of a 50000 × 128 array, as a vector: the program's last two operations. -/
def col0 (y : Vec Ideal S50000x128 .f32) : Vec Ideal S50000 .f32 :=
  shapeCast S50000 (extractStridedSlice S50000x1 ![0, 0] y Facts₀.slices_S50000x128_S50000x1_0_0) Facts₀.shapeCasts_S50000x1_S50000

theorem col0_apply (y : Vec Ideal S50000x128 .f32) (p : Fin 50000) : col0 y (ix1 p) = y (ix2 p (0 : Fin 128)) := by
  unfold col0
  rw [shapeCast_apply _ Facts₀.shapeCasts_S50000x1_S50000 (ix1 p) (ix2 p (0 : Fin 1))
    (by rewrite [Shape.rowMajor_val_two, Shape.rowMajor_val_one]; show p.val * 1 + 0 = p.val; omega)]
  exact extractStridedSlice_apply ![0, 0] y Facts₀.slices_S50000x128_S50000x1_0_0 (ix2 p (0 : Fin 1)) (ix2 p (0 : Fin 128))
    (fun a => match a with
      | ⟨0, _⟩ => by show p.val = 0 + p.val; omega
      | ⟨1, _⟩ => by show (0 : ℕ) = 0 + 0; rfl)

/-- After the first call its output array holds the first hidden array. -/
theorem W2_hidden (c : Dev nD) :
    W2 m ρ c (Proc.devRef .tc main_v24) = hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Rows0.layer_array (V1 m ρ) c).trans (by
    show Cert.Sage.conv (W1 m ρ c (Proc.devRef .tc main_v22)) (W1 m ρ c (Proc.devRef .tc main_arg0)) (W1 m ρ c (Proc.devRef .tc main_arg2))
      (W1 m ρ c (Proc.devRef .tc main_arg4)) (W1 m ρ c (Proc.devRef .tc main_v23)) = _
    rw [W1_agg, W1_arg0, W1_arg2, W1_arg4, W1_bias]; rfl))

theorem W2_src (c : Dev nD) : W2 m ρ c (Proc.devRef .tc main_v1) = srcOf (F := Ideal) (m ((c : Thread nD τ).loc main_arg1)) :=
  (W2_of_ne m ρ c main_v1 (by decide)).trans (W1_src m ρ c)
theorem W2_dst (c : Dev nD) : W2 m ρ c (Proc.devRef .tc main_v3) = dstOf (F := Ideal) (m ((c : Thread nD τ).loc main_arg1)) :=
  (W2_of_ne m ρ c main_v3 (by decide)).trans (W1_dst m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

/-! ## Before the second call -/

set_option maxHeartbeats 8000000 in
theorem W3_agg (c : Dev nD) : W3 m ρ c (Proc.devRef .tc main_v43) = segMean (F := Ideal) (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp <;> rfl

set_option maxHeartbeats 8000000 in
theorem W3_hidden (c : Dev nD) : W3 m ρ c (Proc.devRef .tc main_v24) = W2 m ρ c (Proc.devRef .tc main_v24) := by
  show StableHlo.after hostOps1 (W2 m ρ c) (Proc.devRef .tc main_v24) = _
  after_results_simp <;> rfl

set_option maxHeartbeats 8000000 in
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl

set_option maxHeartbeats 8000000 in
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

set_option maxHeartbeats 8000000 in
theorem W3_bias (c : Dev nD) : W3 m ρ c (Proc.devRef .tc main_v52) = rowOf (F := Ideal) (W2 m ρ c (Proc.devRef .tc main_arg6)) := by
  show StableHlo.after hostOps1 (W2 m ρ c) (Proc.devRef .tc main_v52) = _
  after_results_simp <;> rfl

set_option maxHeartbeats 8000000 in
theorem W3_wo (c : Dev nD) : W3 m ρ c (Proc.devRef .tc main_v47) = woPad (F := Ideal) (W2 m ρ c (Proc.devRef .tc main_arg8)) := by
  show StableHlo.after hostOps1 (W2 m ρ c) (Proc.devRef .tc main_v47) = _
  after_results_simp <;> rfl

set_option maxHeartbeats 8000000 in
theorem W3_bo (c : Dev nD) : W3 m ρ c (Proc.devRef .tc main_v53) = boPad (F := Ideal) (W2 m ρ c (Proc.devRef .tc main_arg9)) := by
  show StableHlo.after hostOps1 (W2 m ρ c) (Proc.devRef .tc main_v53) = _
  after_results_simp <;> rfl

/-! ## The second call and the result -/

/-- After the second call its output array holds the layer-with-head array of the arguments. -/
theorem W4_out (c : Dev nD) :
    W4 m ρ c (Proc.devRef .tc main_v54) = outFull (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 7).trans ((Rows1.head_array (V3 m ρ) c).trans (by
    show Cert.Sage.head (W3 m ρ c (Proc.devRef .tc main_v43)) (W3 m ρ c (Proc.devRef .tc main_v24)) (W3 m ρ c (Proc.devRef .tc main_arg5))
      (W3 m ρ c (Proc.devRef .tc main_arg7)) (W3 m ρ c (Proc.devRef .tc main_v52)) (W3 m ρ c (Proc.devRef .tc main_v47)) (W3 m ρ c (Proc.devRef .tc main_v53)) = _
    rw [W3_agg, W3_hidden, W3_arg5, W3_arg7, W3_bias, W3_wo, W3_bo, W2_hidden, W2_src, W2_dst, W2_arg5, W2_arg6, W2_arg7, W2_arg8, W2_arg9]; rfl))

/-- The program's result buffer at the end: column 0 of the second call's output. -/
theorem result (c : Dev nD) :
    W5 m ρ c (Proc.devRef .tc main_v56) = col0 (outFull (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v56) = _
  after_results_simp
  show col0 (W4 m ρ c (Proc.devRef .tc main_v54)) = _
  rw [W4_out]

end Cert.KernelIdeal.Net

end
-- ==== Proof.LibScatter.lean ====
/-
  A scatter that overwrites, read at an entry that exactly one update lands on.

  The scatter is a left fold over the update indices in row-major order, each step overwriting the entry its update lands
  on. When every update `j` lands at `g j` with `g` injective, no update but `j` writes the entry `g j`, so after the whole
  fold that entry holds update `j`.
-/
import Idealize.ShloMosaic.PureOps.ShapeOps
import Idealize.ShloMosaic.PureOps.Dims

noncomputable section

namespace Cert.GNN

open Idealize.ShloMosaic

/-- The fold of overwriting steps over any list `l` of update numbers, read at `g j`: update `j` when `j`'s number occurs
    in `l`, the start value otherwise. A step for another update leaves the entry alone because `g` is injective. -/
private theorem foldl_set_at {α : Type} {s u : Shape} (upd : u.Idx → α) (g : u.Idx → s.Idx)
    (hinj : Function.Injective g) (j : u.Idx) (l : List (Fin u.numel)) (r : s.Idx → α) :
    l.foldl (fun r n => fun i' => if i' = g (u.rowMajor.symm n) then upd (u.rowMajor.symm n) else r i') r (g j)
      = if u.rowMajor j ∈ l then upd j else r (g j) := by
  induction l generalizing r with
  | nil => simp
  | cons n l ih =>
    rw [List.foldl_cons, ih]
    by_cases hn : n = u.rowMajor j
    · subst hn; simp
    · have hne : g j ≠ g (u.rowMajor.symm n) := fun h => hn (by rw [hinj h]; simp)
      have hn' : ¬ u.rowMajor j = n := fun h => hn h.symm
      simp [hne, hn']

/-- A scatter whose body keeps the update, at an entry exactly one update lands on: when update `j` lands at `g j` for every
    `j` and `g` is injective, the result at `g j` is update `j`. -/
theorem scatter_set_at_landing {α : Type} {s si u : Shape} {w : Nat} (d : ScatterDims s si u) (x : s.Idx → α)
    (idx : IVec si w) (upd : u.Idx → α) (g : u.Idx → s.Idx) (hg : ∀ j, d.resultIdx? j idx = some (g j))
    (hinj : Function.Injective g) (j : u.Idx) :
    Host.scatter d (fun _ b => b) x idx upd (g j) = upd j := by
  unfold Host.scatter
  simp only [hg]
  rw [foldl_set_at upd g hinj j]
  simp [List.mem_finRange]

end Cert.GNN

end
-- ==== Proof.PadHead.lean ====
/-
  The host's padding of the output head, read entry by entry.

  The 128 × 1 head matrix is scattered into column 0 of a 128 × 128 matrix of zeros, and the head's one bias into entry 0
  of a row of 128 zeros. Each scatter has one start index, the constant 0, so update `j` lands at (row `j`, column 0),
  resp. at entry 0; the landing map is injective, so the entry it lands on holds exactly that update. A bias vector read
  through its one-row form is the vector itself, by row-major position.
-/
import proofs.«181763_j5085241279116_1_alg».proof.Proof.Glue
import proofs.«181763_j5085241279116_1_alg».proof.Proof.LibScatter
import Idealize.ShloMosaic.Lib.Pipeline.Value
import Idealize.ShloMosaic.Lib.ValueIdx

noncomputable section

namespace Cert.KernelIdeal.PadHead

open Cert.KernelIdeal Cert.KernelIdeal.Glue Idealize.ShloMosaic Idealize.ShloMosaic.ValueIdx
open Facts₀

variable [Facts]

/-! ## The head matrix: one column of 128 updates written at column 0 -/

/-- The start of every update's window is 0 on both axes: the one start index is the constant 0, read signed, on the
    scattered axis, and 0 by definition on the other. -/
private theorem wo_start (j : S128.Idx) (a : Fin 2) :
    scatter_S128x128_S1_S128_0_1_1_0.start j (broadcastInDim S1 ![] bcast_S_S1 (constantI S_ 32 0#32)) a = 0 := by
  unfold ScatterDims.start
  split
  · rfl
  · rfl

/-- On the row axis, the one kept axis, the window coordinate is the update's coordinate. -/
private theorem wo_window0 (j : S128.Idx) : scatter_S128x128_S1_S128_0_1_1_0.window j 0 = (j 0).val := by
  have h0 : (0 : Fin S128x128.rank) ∈ scatter_S128x128_S1_S128_0_1_1_0.sKept := by
    show (0 : Fin S128x128.rank) ∈ S128x128.kept [1]
    decide
  unfold ScatterDims.window
  rw [dif_pos h0]
  rfl

/-- On the column axis, the inserted one, the window coordinate is 0. -/
private theorem wo_window1 (j : S128.Idx) : scatter_S128x128_S1_S128_0_1_1_0.window j 1 = 0 := by
  have h1 : (1 : Fin S128x128.rank) ∉ scatter_S128x128_S1_S128_0_1_1_0.sKept := by
    show (1 : Fin S128x128.rank) ∉ S128x128.kept [1]
    decide
  unfold ScatterDims.window
  rw [dif_neg h1]

/-- Start plus window coordinate, axis by axis, is the index (row of the update, column 0). -/
private theorem wo_sum (j : S128.Idx) : ∀ a : Fin 2,
    scatter_S128x128_S1_S128_0_1_1_0.start j (broadcastInDim S1 ![] bcast_S_S1 (constantI S_ 32 0#32)) a
        + (scatter_S128x128_S1_S128_0_1_1_0.window j a : Int)
      = ((ix2 (j 0) (0 : Fin 128) a).val : Int) := by
  refine Fin.forall_fin_two.2 ⟨?_, ?_⟩
  · rw [wo_start, wo_window0]; exact Int.zero_add _
  · rw [wo_start, wo_window1]; rfl

/-- Update `j` lands at row `j 0`, column 0. -/
private theorem wo_landing (j : S128.Idx) :
    scatter_S128x128_S1_S128_0_1_1_0.resultIdx? j (broadcastInDim S1 ![] bcast_S_S1 (constantI S_ 32 0#32))
      = some (ix2 (j 0) (0 : Fin 128)) := by
  unfold ScatterDims.resultIdx?
  rw [dif_pos (fun a => by
    rw [wo_sum j a]
    exact ⟨Int.natCast_nonneg _, Int.ofNat_lt.2 (ix2 (j 0) (0 : Fin 128) a).isLt⟩)]
  refine congrArg some (funext fun a => Fin.ext ?_)
  show (scatter_S128x128_S1_S128_0_1_1_0.start j (broadcastInDim S1 ![] bcast_S_S1 (constantI S_ 32 0#32)) a
        + (scatter_S128x128_S1_S128_0_1_1_0.window j a : Int)).toNat = (ix2 (j 0) (0 : Fin 128) a).val
  rw [wo_sum j a]
  exact Int.toNat_natCast _

/-- Different updates land in different rows. -/
private theorem wo_inj : Function.Injective (fun j : S128.Idx => (ix2 (j 0) (0 : Fin 128) : S128x128.Idx)) := by
  intro j j' h
  have h0 : j 0 = j' 0 := congrFun h 0
  refine (eq_ix1 j).trans ?_
  rw [h0]
  exact (eq_ix1 j').symm

/-- Column 0 of the padded head matrix is the head matrix's one column. -/
theorem woPad_col0 (wo : Vec Ideal S128x1 .f32) (k : Fin 128) :
    woPad (F := Ideal) wo (ix2 k 0) = wo (ix2 k 0) := by
  unfold woPad
  have h := Cert.GNN.scatter_set_at_landing scatter_S128x128_S1_S128_0_1_1_0
    (broadcastInDim S128x128 ![] bcast_S_S128x128 (constant (F := Ideal) S_ .f32 0x00000000#32))
    (broadcastInDim S1 ![] bcast_S_S1 (constantI S_ 32 0#32))
    (shapeCast S128 wo shapeCasts_S128x1_S128)
    (fun j : S128.Idx => (ix2 (j 0) (0 : Fin 128) : S128x128.Idx)) wo_landing wo_inj (ix1 k)
  refine h.trans ?_
  exact shapeCast_apply wo shapeCasts_S128x1_S128 (ix1 k) (ix2 k 0)
    (by rewrite [Shape.rowMajor_val_two, Shape.rowMajor_val_one]; show k.val * 1 + 0 = k.val; omega)

/-! ## The head bias: one scalar update written at entry 0 -/

/-- The start of the one update's window is 0: the one start index is the constant 0, read signed. -/
private theorem bo_start (j : S_.Idx) (a : Fin 1) :
    scatter_S128_S1_S__n_0_0_0.start j (broadcastInDim S1 ![] bcast_S_S1 (constantI S_ 32 0#32)) a = 0 := by
  unfold ScatterDims.start
  split
  · rfl
  · rfl

/-- The operand's one axis is inserted, so the window coordinate on it is 0. -/
private theorem bo_window (j : S_.Idx) : scatter_S128_S1_S__n_0_0_0.window j 0 = 0 := by
  have h : (0 : Fin S128.rank) ∉ scatter_S128_S1_S__n_0_0_0.sKept := by
    show (0 : Fin S128.rank) ∉ S128.kept [0]
    decide
  unfold ScatterDims.window
  rw [dif_neg h]

/-- Start plus window coordinate on the one axis is 0. -/
private theorem bo_sum (j : S_.Idx) : ∀ a : Fin 1,
    scatter_S128_S1_S__n_0_0_0.start j (broadcastInDim S1 ![] bcast_S_S1 (constantI S_ 32 0#32)) a
        + (scatter_S128_S1_S__n_0_0_0.window j a : Int)
      = ((ix1 (0 : Fin 128) a).val : Int) := by
  refine Fin.forall_fin_one.2 ?_
  rw [bo_start, bo_window]; rfl

/-- The one update lands at entry 0. -/
private theorem bo_landing (j : S_.Idx) :
    scatter_S128_S1_S__n_0_0_0.resultIdx? j (broadcastInDim S1 ![] bcast_S_S1 (constantI S_ 32 0#32))
      = some (ix1 (0 : Fin 128)) := by
  unfold ScatterDims.resultIdx?
  rw [dif_pos (fun a => by
    rw [bo_sum j a]
    exact ⟨Int.natCast_nonneg _, Int.ofNat_lt.2 (ix1 (0 : Fin 128) a).isLt⟩)]
  refine congrArg some (funext fun a => Fin.ext ?_)
  show (scatter_S128_S1_S__n_0_0_0.start j (broadcastInDim S1 ![] bcast_S_S1 (constantI S_ 32 0#32)) a
        + (scatter_S128_S1_S__n_0_0_0.window j a : Int)).toNat = (ix1 (0 : Fin 128) a).val
  rw [bo_sum j a]
  exact Int.toNat_natCast _

/-- The scalar shape has one index, so any map out of its indices is injective. -/
private theorem bo_inj : Function.Injective (fun _ : S_.Idx => (ix1 (0 : Fin 128) : S128.Idx)) := by
  intro j j' _
  funext a
  exact a.elim0

/-- Entry 0 of the padded bias row is the head's bias. -/
theorem boPad_entry0 (bo : Vec Ideal S1 .f32) :
    boPad (F := Ideal) bo (ix2 0 0) = bo (ix1 0) := by
  unfold boPad
  refine (shapeCast_apply _ shapeCasts_S128_S1x128 (ix2 0 0) (ix1 (0 : Fin 128))
    (by rewrite [Shape.rowMajor_val_two, Shape.rowMajor_val_one]; rfl)).trans ?_
  have h := Cert.GNN.scatter_set_at_landing scatter_S128_S1_S__n_0_0_0
    (broadcastInDim S128 ![] bcast_S_S128 (constant (F := Ideal) S_ .f32 0x00000000#32))
    (broadcastInDim S1 ![] bcast_S_S1 (constantI S_ 32 0#32))
    (shapeCast S_ bo shapeCasts_S1_S_)
    (fun _ : S_.Idx => (ix1 (0 : Fin 128) : S128.Idx)) bo_landing bo_inj ix0
  refine h.trans ?_
  exact shapeCast_apply bo shapeCasts_S1_S_ ix0 (ix1 0)
    (by rewrite [Shape.rowMajor_val_one]; exact (Shape.rowMajorPi_zero _ _).symm)

/-- A bias vector read through its one-row form. -/
theorem rowOf_apply (b : Vec Ideal S128 .f32) (q : Fin 128) :
    rowOf (F := Ideal) b (ix2 0 q) = b (ix1 q) := by
  unfold rowOf
  exact shapeCast_apply b shapeCasts_S128_S1x128 (ix2 0 q) (ix1 q)
    (by rewrite [Shape.rowMajor_val_two, Shape.rowMajor_val_one]; show q.val = 0 * 128 + q.val; omega)

end Cert.KernelIdeal.PadHead

end
-- ==== Proof.RefLayers.lean ====
/-
  The reference network's two hidden arrays, read entry by entry, are the specification's layer function, and its
  result at a node is the specification's head at column 0.
-/
import proofs.«181763_j5085241279116_1_alg».proof.Proof.Gen.ReferenceIdeal.Read
import proofs.«181763_j5085241279116_1_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.ValueIdx

open scoped BigOperators

/-! ## One layer at an entry

The reference adds the bias between the two products; the specification adds it after them. In an additive
commutative monoid the two orders agree. -/

/-- `max ((Σₖ a[p,k]·wl[k,q] + c) + Σₖ r[p,k]·wr[k,q], 0)` is the layer at `(p, q)` when `c` is the bias row's
    entry `q`. -/
theorem layer_entry {N : ℕ} (a r : FVec Ideal ⟨2, ![N, 128]⟩ .f32) (wl wr : FVec Ideal ⟨2, ![128, 128]⟩ .f32)
    (b : FVec Ideal ⟨2, ![1, 128]⟩ .f32) (p : Fin N) (q : Fin 128) (c : Ideal .f32) (hc : c = b (ix2 0 q)) :
    max (((∑ k : Fin 128, a (ix2 p k) * wl (ix2 k q)) + c) + ∑ k : Fin 128, r (ix2 p k) * wr (ix2 k q))
        (Ideal.ofBits .f32 0x00000000#32)
      = Cert.Sage.convAt a r wl wr b p q := by
  unfold Cert.Sage.convAt
  rw [hc, add_right_comm]

/-! ## The composed index functions are the coordinate constructors -/

theorem lidx23 (p : Fin 50000) (q k : Fin 128) : lidx_main_v23 (ix2 p q) k = ix2 p k :=
  funext fun a => match a with | ⟨0, _⟩ => rfl | ⟨1, _⟩ => rfl
theorem ridx23 (p : Fin 50000) (q k : Fin 128) : ridx_main_v23 (ix2 p q) k = ix2 k q :=
  funext fun a => match a with | ⟨0, _⟩ => rfl | ⟨1, _⟩ => rfl
theorem lidx27 (p : Fin 50000) (q k : Fin 128) : lidx_main_v27 (ix2 p q) k = ix2 p k :=
  funext fun a => match a with | ⟨0, _⟩ => rfl | ⟨1, _⟩ => rfl
theorem ridx27 (p : Fin 50000) (q k : Fin 128) : ridx_main_v27 (ix2 p q) k = ix2 k q :=
  funext fun a => match a with | ⟨0, _⟩ => rfl | ⟨1, _⟩ => rfl
theorem idx25 (p : Fin 50000) (q : Fin 128) : idx_main_v24 (idx_main_v25 (ix2 p q)) = ix1 q :=
  funext fun a => match a with | ⟨0, _⟩ => rfl

theorem lidx49 (p : Fin 50000) (q k : Fin 128) : lidx_main_v49 (ix2 p q) k = ix2 p k :=
  funext fun a => match a with | ⟨0, _⟩ => rfl | ⟨1, _⟩ => rfl
theorem ridx49 (p : Fin 50000) (q k : Fin 128) : ridx_main_v49 (ix2 p q) k = ix2 k q :=
  funext fun a => match a with | ⟨0, _⟩ => rfl | ⟨1, _⟩ => rfl
theorem lidx53 (p : Fin 50000) (q k : Fin 128) : lidx_main_v53 (ix2 p q) k = ix2 p k :=
  funext fun a => match a with | ⟨0, _⟩ => rfl | ⟨1, _⟩ => rfl
theorem ridx53 (p : Fin 50000) (q k : Fin 128) : ridx_main_v53 (ix2 p q) k = ix2 k q :=
  funext fun a => match a with | ⟨0, _⟩ => rfl | ⟨1, _⟩ => rfl
theorem idx51 (p : Fin 50000) (q : Fin 128) : idx_main_v50 (idx_main_v51 (ix2 p q)) = ix1 q :=
  funext fun a => match a with | ⟨0, _⟩ => rfl
theorem lidx56 (p : Fin 50000) (k : Fin 128) : lidx_main_v56 (idx_main_v60 (ix1 p)) k = ix2 p k :=
  funext fun a => match a with | ⟨0, _⟩ => Fin.ext (Nat.div_one _) | ⟨1, _⟩ => rfl
theorem ridx56 (p : Fin 50000) (k : Fin 128) : ridx_main_v56 (idx_main_v60 (ix1 p)) k = ix2 k 0 :=
  funext fun a => match a with | ⟨0, _⟩ => rfl | ⟨1, _⟩ => rfl
theorem idx58 (p : Fin 50000) : idx_main_v57 (idx_main_v58 (idx_main_v60 (ix1 p))) = ix1 0 :=
  funext fun a => match a with | ⟨0, _⟩ => rfl

/-! ## The two hidden arrays at an entry -/

/-- The first hidden array at `(p, q)`. -/
theorem v29_entry (x0 : Vec Ideal S50000x128 .f32) (x1 : Vec Ideal S2x600000 .i32) (x2 : Vec Ideal S128x128 .f32)
    (x3 : Vec Ideal S128 .f32) (x4 : Vec Ideal S128x128 .f32) (b : FVec Ideal ⟨2, ![1, 128]⟩ .f32)
    (hb : ∀ q : Fin 128, b (ix2 0 q) = x3 (ix1 q)) (p : Fin 50000) (q : Fin 128) :
    val_main_v29 (F := Ideal) x0 x1 x2 x3 x4 (ix2 p q)
      = Cert.Sage.convAt (val_main_v22 (F := Ideal) x0 x1) x0 x2 x4 b p q := by
  rw [val_main_v29_apply, val_main_v28_apply, val_main_v26_apply, val_main_v23_apply, val_main_v25_apply,
    val_main_v24_apply, val_main_v27_apply, val_main_call0_v0_apply, val_main_call0_cst_apply, idx25]
  simp only [lidx23, ridx23, lidx27, ridx27]
  exact layer_entry (val_main_v22 (F := Ideal) x0 x1) x0 x2 x4 b p q _ (hb q).symm

/-- The second hidden array at `(p, q)`. -/
theorem v55_entry (x0 : Vec Ideal S50000x128 .f32) (x1 : Vec Ideal S2x600000 .i32) (x2 : Vec Ideal S128x128 .f32)
    (x3 : Vec Ideal S128 .f32) (x4 x5 : Vec Ideal S128x128 .f32) (x6 : Vec Ideal S128 .f32)
    (x7 : Vec Ideal S128x128 .f32) (b : FVec Ideal ⟨2, ![1, 128]⟩ .f32)
    (hb : ∀ q : Fin 128, b (ix2 0 q) = x6 (ix1 q)) (p : Fin 50000) (q : Fin 128) :
    val_main_v55 (F := Ideal) x0 x1 x2 x3 x4 x5 x6 x7 (ix2 p q)
      = Cert.Sage.convAt (val_main_v48 (F := Ideal) x0 x1 x2 x3 x4) (val_main_v29 (F := Ideal) x0 x1 x2 x3 x4)
          x5 x7 b p q := by
  rw [val_main_v55_apply, val_main_v54_apply, val_main_v52_apply, val_main_v49_apply, val_main_v51_apply,
    val_main_v50_apply, val_main_v53_apply, val_main_call1_v0_apply, val_main_call1_cst_apply, idx51]
  simp only [lidx49, ridx49, lidx53, ridx53]
  exact layer_entry (val_main_v48 (F := Ideal) x0 x1 x2 x3 x4) (val_main_v29 (F := Ideal) x0 x1 x2 x3 x4) x5 x7 b p q _
    (hb q).symm

/-- The reference's first hidden array is the layer function of the aggregated features, the features, the two weight
    matrices and the bias as a row. -/
theorem layer1 (x0 : Vec Ideal S50000x128 .f32) (x1 : Vec Ideal S2x600000 .i32) (x2 : Vec Ideal S128x128 .f32)
    (x3 : Vec Ideal S128 .f32) (x4 : Vec Ideal S128x128 .f32) (b : FVec Ideal ⟨2, ![1, 128]⟩ .f32)
    (hb : ∀ q : Fin 128, b (ix2 0 q) = x3 (ix1 q)) :
    val_main_v29 (F := Ideal) x0 x1 x2 x3 x4 = Cert.Sage.conv (val_main_v22 (F := Ideal) x0 x1) x0 x2 x4 b := by
  funext i
  obtain ⟨p, q, rfl⟩ : ∃ (p : Fin 50000) (q : Fin 128), i = ix2 p q := ⟨i 0, i 1, eq_ix2 i⟩
  rw [Cert.Sage.conv_apply]
  exact v29_entry x0 x1 x2 x3 x4 b hb p q

/-- The reference's result at node `p` is the second layer with the head at column 0, for any padded head matrix whose
    column 0 is the head's column and any padded bias row whose entry 0 is the head's bias. -/
theorem result_entry (x0 : Vec Ideal S50000x128 .f32) (x1 : Vec Ideal S2x600000 .i32) (x2 : Vec Ideal S128x128 .f32)
    (x3 : Vec Ideal S128 .f32) (x4 x5 : Vec Ideal S128x128 .f32) (x6 : Vec Ideal S128 .f32) (x7 : Vec Ideal S128x128 .f32)
    (x8 : Vec Ideal S128x1 .f32) (x9 : Vec Ideal S1 .f32)
    (b : FVec Ideal ⟨2, ![1, 128]⟩ .f32) (hb : ∀ q : Fin 128, b (ix2 0 q) = x6 (ix1 q))
    (wo : FVec Ideal ⟨2, ![128, 128]⟩ .f32) (hwo : ∀ k : Fin 128, wo (ix2 k 0) = x8 (ix2 k 0))
    (bo : FVec Ideal ⟨2, ![1, 128]⟩ .f32) (hbo : bo (ix2 0 0) = x9 (ix1 0)) (p : Fin 50000) :
    Cert.Sage.headAt (val_main_v48 (F := Ideal) x0 x1 x2 x3 x4) (val_main_v29 (F := Ideal) x0 x1 x2 x3 x4) x5 x7 b wo bo p 0
      = val_main_v60 (F := Ideal) x0 x1 x2 x3 x4 x5 x6 x7 x8 x9 (ix1 p) := by
  rw [val_main_v60_apply, val_main_v59_apply, val_main_v56_apply, val_main_v58_apply, val_main_v57_apply, idx58]
  simp only [lidx56, ridx56]
  unfold Cert.Sage.headAt
  rw [hbo]
  simp only [hwo, v55_entry x0 x1 x2 x3 x4 x5 x6 x7 b hb]
  rfl

end Cert.ReferenceIdeal.Layers

end
-- ==== Proof.Bridge.lean ====
/-
  The two programs compute one function.

  Both programs aggregate neighbour features with the same host operations, so the reference's aggregated arrays ARE the
  kernel's mean aggregation of the same arrays, term for term. The reference's first hidden array is then the layer
  function of those arrays (the only difference, the place of the bias in a sum of three terms, is commutativity of
  addition on the extended reals), the second layer aggregates that same hidden array, and the reference's result at a
  node is the second layer with the head at column 0, the padded head matrix and bias read where they were written.
-/
import proofs.«181763_j5085241279116_1_alg».proof.Proof.KernelValue
import proofs.«181763_j5085241279116_1_alg».proof.Proof.PadHead
import proofs.«181763_j5085241279116_1_alg».proof.Proof.RefLayers

noncomputable section

namespace Cert.Proof.Bridge

open Idealize.ShloMosaic Idealize.ShloMosaic.ValueIdx
open Cert.KernelIdeal Cert.KernelIdeal.Glue Cert.KernelIdeal.Net

variable (x0 : Vec Ideal S50000x128 .f32) (x1 : Vec Ideal S2x600000 .i32) (x2 : Vec Ideal S128x128 .f32)
  (x3 : Vec Ideal S128 .f32) (x4 x5 : Vec Ideal S128x128 .f32) (x6 : Vec Ideal S128 .f32) (x7 : Vec Ideal S128x128 .f32)
  (x8 : Vec Ideal S128x1 .f32) (x9 : Vec Ideal S1 .f32)

/-- The reference's first aggregated array is the mean aggregation of the features over the edge list. -/
theorem agg1_eq : Cert.ReferenceIdeal.Read.val_main_v22 (F := Ideal) x0 x1 = segMean x0 (srcOf x1) (dstOf x1) := rfl

/-- The reference's second aggregated array is the mean aggregation of its first hidden array over the same edge list. -/
theorem agg2_eq : Cert.ReferenceIdeal.Read.val_main_v48 (F := Ideal) x0 x1 x2 x3 x4
    = segMean (Cert.ReferenceIdeal.Read.val_main_v29 (F := Ideal) x0 x1 x2 x3 x4) (srcOf x1) (dstOf x1) := rfl

/-- The kernel's first hidden array is the reference's. -/
theorem hidden_eq : Net.hidden x0 x1 x2 x3 x4 = Cert.ReferenceIdeal.Read.val_main_v29 (F := Ideal) x0 x1 x2 x3 x4 := by
  unfold Net.hidden
  rw [← agg1_eq]
  exact (Cert.ReferenceIdeal.Layers.layer1 x0 x1 x2 x3 x4 (rowOf x3) (PadHead.rowOf_apply x3)).symm

/-- The kernel's result vector is the reference's. -/
theorem result_eq : col0 (outFull x0 x1 x2 x3 x4 x5 x6 x7 x8 x9) = Cert.ReferenceIdeal.Read.val_main_v60 (F := Ideal) x0 x1 x2 x3 x4 x5 x6 x7 x8 x9 := by
  funext i
  obtain ⟨p, rfl⟩ : ∃ p : Fin 50000, i = ix1 p := ⟨i 0, eq_ix1 i⟩
  rw [col0_apply]
  unfold Net.outFull
  rw [Cert.Sage.head_apply, hidden_eq, ← agg2_eq]
  exact Cert.ReferenceIdeal.Layers.result_entry x0 x1 x2 x3 x4 x5 x6 x7 x8 x9 (rowOf x6) (PadHead.rowOf_apply x6) (woPad x8) (PadHead.woPad_col0 x8)
    (boPad x9) (PadHead.boPad_entry0 x9) p

end Cert.Proof.Bridge

end
-- ==== Proof.lean ====
/-
  The certificate of a two-layer GraphSAGE regressor: the kernel (two pallas_calls over blocks of 5000 nodes, with host
  gathers and scatter-adds between them) against its jnp reference, equal as functions over the extended reals.

  The three frames are generated: the kernel's (word-level and idealized) by the generated frame modules, the reference's
  by its generated run. Nothing was rewritten when the kernel was idealized, so that conjunct is empty. For the
  equivalence, the kernel's run is the generated launch with the result buffer named (Proof/KernelRun.lean), whose
  contents are followed through the program to column 0 of the second layer-with-head array (Proof/KernelValue.lean over
  Proof/Rows0.lean and Proof/Rows1.lean: each call's output array is the layer function of the arrays it is entered with);
  the reference's run ends at its generated term, read stage by stage (Proof/RefLayers.lean); and the two are one function
  (Proof/Bridge.lean): the mean aggregations are the same host operations, a layer differs only in where the bias stands
  in a sum of three terms, and the head padded to 128 columns is read at the one column that was written
  (Proof/PadHead.lean over Proof/LibScatter.lean). No step needs the inputs finite.
-/
import proofs.«181763_j5085241279116_1_alg».proof.Defs
import proofs.«181763_j5085241279116_1_alg».proof.Proof.Gen.Kernel
import proofs.«181763_j5085241279116_1_alg».proof.Proof.Gen.Kernel.Skeleton
import proofs.«181763_j5085241279116_1_alg».proof.Proof.Gen.Kernel.Launch
import proofs.«181763_j5085241279116_1_alg».proof.Proof.Gen.Kernel.Points
import proofs.«181763_j5085241279116_1_alg».proof.Proof.Gen.Kernel.Frame
import proofs.«181763_j5085241279116_1_alg».proof.Proof.Gen.KernelIdeal
import proofs.«181763_j5085241279116_1_alg».proof.Proof.Gen.KernelIdeal.Skeleton
import proofs.«181763_j5085241279116_1_alg».proof.Proof.Gen.KernelIdeal.Launch
import proofs.«181763_j5085241279116_1_alg».proof.Proof.Gen.KernelIdeal.Points
import proofs.«181763_j5085241279116_1_alg».proof.Proof.Gen.KernelIdeal.Frame
import proofs.«181763_j5085241279116_1_alg».proof.Proof.Gen.ReferenceIdeal
import proofs.«181763_j5085241279116_1_alg».proof.Proof.Gen.ReferenceIdeal.Run
import proofs.«181763_j5085241279116_1_alg».proof.Proof.Gen.ReferenceIdeal.Read
import proofs.«181763_j5085241279116_1_alg».proof.Proof.Gen.Pre_finite_inputs
import proofs.«181763_j5085241279116_1_alg».proof.Proof.KernelRun
import proofs.«181763_j5085241279116_1_alg».proof.Proof.KernelValue
import proofs.«181763_j5085241279116_1_alg».proof.Proof.Bridge
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result vector: the kernel's run
    ends at column 0 of its second call's output, the reference's at its composed term, and the two are equal. -/
theorem algebraic : Cert.algebraic_KernelIdeal_ReferenceIdeal := by
  intro m ρ m' ρ' _ hagree
  refine ⟨fun c => Cert.KernelIdeal.Net.col0 (Cert.KernelIdeal.Net.outFull (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Net.result m ρ c), (h c).2⟩) (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v60_eq, e0, e1, e2, e3, e4, e5, e6, e7, e8, e9]
    exact (Cert.Proof.Bridge.result_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
